-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S200000x128 .f32) (main_arg1 : IVec S2x6400000 32) (main_arg2 : FVec F S128x16 .f32) (main_arg3 : FVec F S16 .f32) (main_arg4 : FVec F S16x32 .f32) (main_arg5 : FVec F S32 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_v13 main_v16
-- ==== Kernel.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S1x6400000 : Shape := ⟨2, ![1, 6400000]⟩
abbrev S6400000 : Shape := ⟨1, ![6400000]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S10000x128 : Shape := ⟨2, ![10000, 128]⟩
abbrev S10000x16 : Shape := ⟨2, ![10000, 16]⟩
abbrev S6600000x16 : Shape := ⟨2, ![6600000, 16]⟩
abbrev S1x16 : Shape := ⟨2, ![1, 16]⟩
abbrev S200000x32 : Shape := ⟨2, ![200000, 32]⟩
abbrev S10000x32 : Shape := ⟨2, ![10000, 32]⟩
abbrev S6600000x32 : Shape := ⟨2, ![6600000, 32]⟩
abbrev S1x32 : Shape := ⟨2, ![1, 32]⟩

abbrev nBuf : Space → Nat
  | .hbm => 88
  | .vmem => 10
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S200000, .i32⟩
  | .hbm, ⟨11, _⟩ => ⟨S6600000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S200000, .f32⟩
  | .hbm, ⟨25, _⟩ => ⟨S200000, .f32⟩
  | .hbm, ⟨26, _⟩ => ⟨S_, .i32⟩
  | .hbm, ⟨27, _⟩ => ⟨S6600000, .i32⟩
  | .hbm, ⟨28, _⟩ => ⟨S6600000, .i1⟩
  | .hbm, ⟨29, _⟩ => ⟨S_, .i32⟩
  | .hbm, ⟨30, _⟩ => ⟨S6600000, .i32⟩
  | .hbm, ⟨31, _⟩ => ⟨S6600000, .i32⟩
  | .hbm, ⟨32, _⟩ => ⟨S6600000, .i32⟩
  | .hbm, ⟨33, _⟩ => ⟨S6600000x1, .i32⟩
  | .hbm, ⟨34, _⟩ => ⟨S6600000, .f32⟩
  | .hbm, ⟨35, _⟩ => ⟨S_, .i32⟩
  | .hbm, ⟨36, _⟩ => ⟨S6600000, .i32⟩
  | .hbm, ⟨37, _⟩ => ⟨S6600000, .i1⟩
  | .hbm, ⟨38, _⟩ => ⟨S_, .i32⟩
  | .hbm, ⟨39, _⟩ => ⟨S6600000, .i32⟩
  | .hbm, ⟨40, _⟩ => ⟨S6600000, .i32⟩
  | .hbm, ⟨41, _⟩ => ⟨S6600000, .i32⟩
  | .hbm, ⟨42, _⟩ => ⟨S6600000x1, .i32⟩
  | .hbm, ⟨43, _⟩ => ⟨S6600000, .f32⟩
  | .hbm, ⟨44, _⟩ => ⟨S6600000, .f32⟩
  | .hbm, ⟨45, _⟩ => ⟨S200000x16, .f32⟩
  | .hbm, ⟨46, _⟩ => ⟨S_, .i32⟩
  | .hbm, ⟨47, _⟩ => ⟨S6600000, .i32⟩
  | .hbm, ⟨48, _⟩ => ⟨S6600000, .i1⟩
  | .hbm, ⟨49, _⟩ => ⟨S_, .i32⟩
  | .hbm, ⟨50, _⟩ => ⟨S6600000, .i32⟩
  | .hbm, ⟨51, _⟩ => ⟨S6600000, .i32⟩
  | .hbm, ⟨52, _⟩ => ⟨S6600000, .i32⟩
  | .hbm, ⟨53, _⟩ => ⟨S6600000x1, .i32⟩
  | .hbm, ⟨54, _⟩ => ⟨S6600000x16, .f32⟩
  | .hbm, ⟨55, _⟩ => ⟨S6600000x1, .f32⟩
  | .hbm, ⟨56, _⟩ => ⟨S6600000x16, .f32⟩
  | .hbm, ⟨57, _⟩ => ⟨S6600000x16, .f32⟩
  | .hbm, ⟨58, _⟩ => ⟨S_, .f32⟩
  | .hbm, ⟨59, _⟩ => ⟨S200000x16, .f32⟩
  | .hbm, ⟨60, _⟩ => ⟨S6600000x1, .i32⟩
  | .hbm, ⟨61, _⟩ => ⟨S200000x16, .f32⟩
  | .hbm, ⟨62, _⟩ => ⟨S1x16, .f32⟩
  | .hbm, ⟨63, _⟩ => ⟨S200000x16, .f32⟩
  | .hbm, ⟨64, _⟩ => ⟨S200000x16, .f32⟩
  | .hbm, ⟨65, _⟩ => ⟨S_, .f32⟩
  | .hbm, ⟨66, _⟩ => ⟨S200000x16, .f32⟩
  | .hbm, ⟨67, _⟩ => ⟨S200000x16, .f32⟩
  | .hbm, ⟨68, _⟩ => ⟨S200000x32, .f32⟩
  | .hbm, ⟨69, _⟩ => ⟨S_, .i32⟩
  | .hbm, ⟨70, _⟩ => ⟨S6600000, .i32⟩
  | .hbm, ⟨71, _⟩ => ⟨S6600000, .i1⟩
  | .hbm, ⟨72, _⟩ => ⟨S_, .i32⟩
  | .hbm, ⟨73, _⟩ => ⟨S6600000, .i32⟩
  | .hbm, ⟨74, _⟩ => ⟨S6600000, .i32⟩
  | .hbm, ⟨75, _⟩ => ⟨S6600000, .i32⟩
  | .hbm, ⟨76, _⟩ => ⟨S6600000x1, .i32⟩
  | .hbm, ⟨77, _⟩ => ⟨S6600000x32, .f32⟩
  | .hbm, ⟨78, _⟩ => ⟨S6600000x1, .f32⟩
  | .hbm, ⟨79, _⟩ => ⟨S6600000x32, .f32⟩
  | .hbm, ⟨80, _⟩ => ⟨S6600000x32, .f32⟩
  | .hbm, ⟨81, _⟩ => ⟨S_, .f32⟩
  | .hbm, ⟨82, _⟩ => ⟨S200000x32, .f32⟩
  | .hbm, ⟨83, _⟩ => ⟨S6600000x1, .i32⟩
  | .hbm, ⟨84, _⟩ => ⟨S200000x32, .f32⟩
  | .hbm, ⟨85, _⟩ => ⟨S1x32, .f32⟩
  | .hbm, ⟨86, _⟩ => ⟨S200000x32, .f32⟩
  | .hbm, ⟨87, _⟩ => ⟨S200000x32, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S16x32, .f32⟩
  | .local _ .vmem, ⟨8, _⟩ => ⟨S10000x32, .f32⟩
  | .local _ .vmem, ⟨9, _⟩ => ⟨S10000x32, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  shapeCasts_S10000x16_S10000x16 : S10000x16.ShapeCasts S10000x16
  inb_S16x32_S16x32_0_0 : ∀ a, (![0, 0] : Fin 2 → Nat) a + S16x32.size a ≤ S16x32.size a
  h_S16x32 : 0 < S16x32.numel
  inb_S10000x32_S10000x32_0_0 : ∀ a, (![0, 0] : Fin 2 → Nat) a + S10000x32.size a ≤ S10000x32.size a
  h_S10000x32 : 0 < S10000x32.numel
  bcast_S6600000x1_S6600000x32_0_1 : S6600000x1.BroadcastsInDim S6600000x32 (![0, 1] : Fin 2 → Fin S6600000x32.rank)
  bcast_S_S200000x32 : S_.BroadcastsInDim S200000x32 (![] : Fin 0 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S10000x128_S128x16_S10000x16_1_0_0_1_n_n_wf : DotDims.WF S10000x128 S128x16 S10000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S10000x16_S16x32_S10000x32_1_0_0_1_n_n_wf : DotDims.WF S10000x16 S16x32 S10000x32 [1] [0] [0] [1] [] []
  gather_S200000x32_S6600000x1_S6600000x32_1_0_n_n_0_1_132_wf : GatherDims.WF S200000x32 S6600000x1 S6600000x32 [1] [0] [] [0] [] 1 ![1, 32]
  scatter_S200000x32_S6600000x1_S6600000x32_1_0_0_1_wf : ScatterDims.WF S200000x32 S6600000x1 S6600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S200000x128.size a
  hwx0_0 : ∀ i : grid0.Coords, EltTy.bits .f32 = 32 ∨ (Rect.block (s := S200000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S200000x16.size a
  hwx0_2 : ∀ i : grid0.Coords, EltTy.bits .f32 = 32 ∨ (Rect.block (s := S200000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S200000x16.size a
  hwx1_0 : ∀ i : grid1.Coords, EltTy.bits .f32 = 32 ∨ (Rect.block (s := S200000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x32.size a ≤ S16x32.size a
  hwx1_1 : ∀ i : grid1.Coords, EltTy.bits .f32 = 32 ∨ (Rect.block (s := S16x32) S16x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S200000x32.size a
  hwx1_2 : ∀ i : grid1.Coords, EltTy.bits .f32 = 32 ∨ (Rect.block (s := S200000x32) S10000x32.size (cc1_transform_2 i) (hinb1_2 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S200000x32_S6600000x1_S6600000x32_1_0_n_n_0_1_132 : GatherDims S200000x32 S6600000x1 S6600000x32 where
  offsetDims := [1]
  collapsedSliceDims := [0]
  operandBatchingDims := []
  startIndicesBatchingDims := []
  startIndexMap := [0]
  indexVectorDim := 1
  sliceSizes := ![1, 32]
  wf := gather_S200000x32_S6600000x1_S6600000x32_1_0_n_n_0_1_132_wf
def scatter_S200000x32_S6600000x1_S6600000x32_1_0_0_1 : ScatterDims S200000x32 S6600000x1 S6600000x32 where
  updateWindowDims := [1]
  insertedWindowDims := [0]
  scatterDimsToOperandDims := [0]
  indexVectorDim := 1
  wf := scatter_S200000x32_S6600000x1_S6600000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S1x6400000 : Shape := ⟨2, ![1, 6400000]⟩
abbrev S6400000 : Shape := ⟨1, ![6400000]⟩
abbrev S200000x16 : Shape := ⟨2, ![200000, 16]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S6600000x16 : Shape := ⟨2, ![6600000, 16]⟩
abbrev S1x16 : Shape := ⟨2, ![1, 16]⟩
abbrev S200000x32 : Shape := ⟨2, ![200000, 32]⟩
abbrev S6600000x32 : Shape := ⟨2, ![6600000, 32]⟩
abbrev S1x32 : Shape := ⟨2, ![1, 32]⟩

abbrev nBuf : Space → Nat
  | .hbm => 123
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S200000x16, .f32⟩
  | .hbm, ⟨11, _⟩ => ⟨S200000, .i32⟩
  | .hbm, ⟨12, _⟩ => ⟨S6600000, .i32⟩
  | .hbm, ⟨13, _⟩ => ⟨S6600000, .i32⟩
  | .hbm, ⟨14, _⟩ => ⟨S_, .f32⟩
  | .hbm, ⟨15, _⟩ => ⟨S6600000, .f32⟩
  | .hbm, ⟨16, _⟩ => ⟨S_, .f32⟩
  | .hbm, ⟨17, _⟩ => ⟨S200000, .f32⟩
  | .hbm, ⟨18, _⟩ => ⟨S6600000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .i1⟩
  | .hbm, ⟨23, _⟩ => ⟨S200000, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .i32⟩
  | .hbm, ⟨28, _⟩ => ⟨S6600000, .i32⟩
  | .hbm, ⟨29, _⟩ => ⟨S6600000, .i1⟩
  | .hbm, ⟨30, _⟩ => ⟨S_, .i32⟩
  | .hbm, ⟨31, _⟩ => ⟨S6600000, .i32⟩
  | .hbm, ⟨32, _⟩ => ⟨S6600000, .i32⟩
  | .hbm, ⟨33, _⟩ => ⟨S6600000, .i32⟩
  | .hbm, ⟨34, _⟩ => ⟨S6600000x1, .i32⟩
  | .hbm, ⟨35, _⟩ => ⟨S6600000, .f32⟩
  | .hbm, ⟨36, _⟩ => ⟨S_, .i32⟩
  | .hbm, ⟨37, _⟩ => ⟨S6600000, .i32⟩
  | .hbm, ⟨38, _⟩ => ⟨S6600000, .i1⟩
  | .hbm, ⟨39, _⟩ => ⟨S_, .i32⟩
  | .hbm, ⟨40, _⟩ => ⟨S6600000, .i32⟩
  | .hbm, ⟨41, _⟩ => ⟨S6600000, .i32⟩
  | .hbm, ⟨42, _⟩ => ⟨S6600000, .i32⟩
  | .hbm, ⟨43, _⟩ => ⟨S6600000x1, .i32⟩
  | .hbm, ⟨44, _⟩ => ⟨S6600000, .f32⟩
  | .hbm, ⟨45, _⟩ => ⟨S6600000, .f32⟩
  | .hbm, ⟨46, _⟩ => ⟨S_, .i32⟩
  | .hbm, ⟨47, _⟩ => ⟨S6600000, .i32⟩
  | .hbm, ⟨48, _⟩ => ⟨S6600000, .i1⟩
  | .hbm, ⟨49, _⟩ => ⟨S_, .i32⟩
  | .hbm, ⟨50, _⟩ => ⟨S6600000, .i32⟩
  | .hbm, ⟨51, _⟩ => ⟨S6600000, .i32⟩
  | .hbm, ⟨52, _⟩ => ⟨S6600000, .i32⟩
  | .hbm, ⟨53, _⟩ => ⟨S6600000x1, .i32⟩
  | .hbm, ⟨54, _⟩ => ⟨S6600000x16, .f32⟩
  | .hbm, ⟨55, _⟩ => ⟨S6600000x1, .f32⟩
  | .hbm, ⟨56, _⟩ => ⟨S6600000x16, .f32⟩
  | .hbm, ⟨57, _⟩ => ⟨S6600000x16, .f32⟩
  | .hbm, ⟨58, _⟩ => ⟨S_, .f32⟩
  | .hbm, ⟨59, _⟩ => ⟨S200000x16, .f32⟩
  | .hbm, ⟨60, _⟩ => ⟨S6600000x1, .i32⟩
  | .hbm, ⟨61, _⟩ => ⟨S200000x16, .f32⟩
  | .hbm, ⟨62, _⟩ => ⟨S1x16, .f32⟩
  | .hbm, ⟨63, _⟩ => ⟨S200000x16, .f32⟩
  | .hbm, ⟨64, _⟩ => ⟨S200000x16, .f32⟩
  | .hbm, ⟨65, _⟩ => ⟨S_, .f32⟩
  | .hbm, ⟨66, _⟩ => ⟨S200000x16, .f32⟩
  | .hbm, ⟨67, _⟩ => ⟨S200000x16, .f32⟩
  | .hbm, ⟨68, _⟩ => ⟨S200000x32, .f32⟩
  | .hbm, ⟨69, _⟩ => ⟨S200000, .i32⟩
  | .hbm, ⟨70, _⟩ => ⟨S6600000, .i32⟩
  | .hbm, ⟨71, _⟩ => ⟨S6600000, .i32⟩
  | .hbm, ⟨72, _⟩ => ⟨S_, .f32⟩
  | .hbm, ⟨73, _⟩ => ⟨S6600000, .f32⟩
  | .hbm, ⟨74, _⟩ => ⟨S_, .f32⟩
  | .hbm, ⟨75, _⟩ => ⟨S200000, .f32⟩
  | .hbm, ⟨76, _⟩ => ⟨S6600000x1, .i32⟩
  | .hbm, ⟨77, _⟩ => ⟨S200000, .f32⟩
  | .hbm, ⟨78, _⟩ => ⟨S_, .f32⟩
  | .hbm, ⟨79, _⟩ => ⟨S200000, .f32⟩
  | .hbm, ⟨80, _⟩ => ⟨S200000, .i1⟩
  | .hbm, ⟨81, _⟩ => ⟨S200000, .f32⟩
  | .hbm, ⟨82, _⟩ => ⟨S_, .f32⟩
  | .hbm, ⟨83, _⟩ => ⟨S200000, .f32⟩
  | .hbm, ⟨84, _⟩ => ⟨S200000, .f32⟩
  | .hbm, ⟨85, _⟩ => ⟨S_, .i32⟩
  | .hbm, ⟨86, _⟩ => ⟨S6600000, .i32⟩
  | .hbm, ⟨87, _⟩ => ⟨S6600000, .i1⟩
  | .hbm, ⟨88, _⟩ => ⟨S_, .i32⟩
  | .hbm, ⟨89, _⟩ => ⟨S6600000, .i32⟩
  | .hbm, ⟨90, _⟩ => ⟨S6600000, .i32⟩
  | .hbm, ⟨91, _⟩ => ⟨S6600000, .i32⟩
  | .hbm, ⟨92, _⟩ => ⟨S6600000x1, .i32⟩
  | .hbm, ⟨93, _⟩ => ⟨S6600000, .f32⟩
  | .hbm, ⟨94, _⟩ => ⟨S_, .i32⟩
  | .hbm, ⟨95, _⟩ => ⟨S6600000, .i32⟩
  | .hbm, ⟨96, _⟩ => ⟨S6600000, .i1⟩
  | .hbm, ⟨97, _⟩ => ⟨S_, .i32⟩
  | .hbm, ⟨98, _⟩ => ⟨S6600000, .i32⟩
  | .hbm, ⟨99, _⟩ => ⟨S6600000, .i32⟩
  | .hbm, ⟨100, _⟩ => ⟨S6600000, .i32⟩
  | .hbm, ⟨101, _⟩ => ⟨S6600000x1, .i32⟩
  | .hbm, ⟨102, _⟩ => ⟨S6600000, .f32⟩
  | .hbm, ⟨103, _⟩ => ⟨S6600000, .f32⟩
  | .hbm, ⟨104, _⟩ => ⟨S_, .i32⟩
  | .hbm, ⟨105, _⟩ => ⟨S6600000, .i32⟩
  | .hbm, ⟨106, _⟩ => ⟨S6600000, .i1⟩
  | .hbm, ⟨107, _⟩ => ⟨S_, .i32⟩
  | .hbm, ⟨108, _⟩ => ⟨S6600000, .i32⟩
  | .hbm, ⟨109, _⟩ => ⟨S6600000, .i32⟩
  | .hbm, ⟨110, _⟩ => ⟨S6600000, .i32⟩
  | .hbm, ⟨111, _⟩ => ⟨S6600000x1, .i32⟩
  | .hbm, ⟨112, _⟩ => ⟨S6600000x32, .f32⟩
  | .hbm, ⟨113, _⟩ => ⟨S6600000x1, .f32⟩
  | .hbm, ⟨114, _⟩ => ⟨S6600000x32, .f32⟩
  | .hbm, ⟨115, _⟩ => ⟨S6600000x32, .f32⟩
  | .hbm, ⟨116, _⟩ => ⟨S_, .f32⟩
  | .hbm, ⟨117, _⟩ => ⟨S200000x32, .f32⟩
  | .hbm, ⟨118, _⟩ => ⟨S6600000x1, .i32⟩
  | .hbm, ⟨119, _⟩ => ⟨S200000x32, .f32⟩
  | .hbm, ⟨120, _⟩ => ⟨S1x32, .f32⟩
  | .hbm, ⟨121, _⟩ => ⟨S200000x32, .f32⟩
  | .hbm, ⟨122, _⟩ => ⟨S200000x32, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_call2_v0 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_c_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_c_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S6600000x1_S6600000x32_0_1 : S6600000x1.BroadcastsInDim S6600000x32 (![0, 1] : Fin 2 → Fin S6600000x32.rank)
  bcast_S_S200000x32 : S_.BroadcastsInDim S200000x32 (![] : Fin 0 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  dot_S200000x128_S128x16_S200000x16_1_0_0_1_n_n_wf : DotDims.WF S200000x128 S128x16 S200000x16 [1] [0] [0] [1] [] []
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x32_S200000x32_1_0_0_1_n_n_wf : DotDims.WF S200000x16 S16x32 S200000x32 [1] [0] [0] [1] [] []
  gather_S200000x32_S6600000x1_S6600000x32_1_0_n_n_0_1_132_wf : GatherDims.WF S200000x32 S6600000x1 S6600000x32 [1] [0] [] [0] [] 1 ![1, 32]
  scatter_S200000x32_S6600000x1_S6600000x32_1_0_0_1_wf : ScatterDims.WF S200000x32 S6600000x1 S6600000x32 [1] [0] [0] 1

variable [Facts₀]

def dot_S200000x128_S128x16_S200000x16_1_0_0_1_n_n : DotDims S200000x128 S128x16 S200000x16 where
  lhsContracting := [1]
  rhsContracting := [0]
  lhsNonContracting := [0]
  rhsNonContracting := [1]
  lhsBatch := []
  rhsBatch := []
  wf := dot_S200000x128_S128x16_S200000x16_1_0_0_1_n_n_wf
def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x32_S200000x32_1_0_0_1_n_n : DotDims S200000x16 S16x32 S200000x32 where
  lhsContracting := [1]
  rhsContracting := [0]
  lhsNonContracting := [0]
  rhsNonContracting := [1]
  lhsBatch := []
  rhsBatch := []
  wf := dot_S200000x16_S16x32_S200000x32_1_0_0_1_n_n_wf
def gather_S200000x32_S6600000x1_S6600000x32_1_0_n_n_0_1_132 : GatherDims S200000x32 S6600000x1 S6600000x32 where
  offsetDims := [1]
  collapsedSliceDims := [0]
  operandBatchingDims := []
  startIndicesBatchingDims := []
  startIndexMap := [0]
  indexVectorDim := 1
  sliceSizes := ![1, 32]
  wf := gather_S200000x32_S6600000x1_S6600000x32_1_0_n_n_0_1_132_wf
def scatter_S200000x32_S6600000x1_S6600000x32_1_0_0_1 : ScatterDims S200000x32 S6600000x1 S6600000x32 where
  updateWindowDims := [1]
  insertedWindowDims := [0]
  scatterDimsToOperandDims := [0]
  indexVectorDim := 1
  wf := scatter_S200000x32_S6600000x1_S6600000x32_1_0_0_1_wf

class Facts : Prop extends Facts₀ where

variable [Facts]
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.LibGcnSpec.lean ====
/-
  One layer of a graph convolution at the extended reals, index by index: the features times the weights, the
  adjacency times that product, and a clamp at zero,

      layer A X W (p, q) = max (∑ₖ A(p, k) · (∑ⱼ X(k, j) · W(j, q))) 0,

  every sum a plain row-by-column sum over the contracted axis (no regrouping, so nothing here needs the entries to be
  finite). Three readings of it: the host's two `dot_general`s and `maximum` against a broadcast zero ARE this
  function; a matrix-unit product of a BLOCK OF ROWS of the adjacency with the whole hidden array, clamped, is this
  function read at those rows; and the hidden array a kernel keeps (one matrix-unit product into a zero accumulator)
  is the inner sum. A record of dimension numbers enters only through the six facts of a plain product, which any
  record listing "contract axis 1 of the left with axis 0 of the right, no batch axes" has.
-/
import Idealize.ShloMosaic.PureOps.Ideal
import Idealize.ShloMosaic.PureOps.Ideal.Laws
import Idealize.ShloMosaic.Lib.ValueIdx
import proofs.«141529_j58016418234712_1_alg».proof.Proof.LibSageSpec

noncomputable section

open scoped BigOperators

namespace Idealize.ShloMosaic.GcnSpec

open Idealize.ShloMosaic Idealize.ShloMosaic.ValueIdx Idealize.ShloMosaic.SageSpec

/-! ## Plain dimension numbers -/

/-- A record whose lists are the plain ones — contract axis 1 of the left operand with axis 0 of the right, the other
    two axes kept in order, no batch axis — reads its operands at (row, κ) and (κ, column), whatever the extents. -/
theorem plainDot_of_lists {n k m : Nat} (d : DotDims ⟨2, ![n, k]⟩ ⟨2, ![k, m]⟩ ⟨2, ![n, m]⟩)
    (hlc : d.lhsContracting = [1]) (hrc : d.rhsContracting = [0]) (hln : d.lhsNonContracting = [0])
    (hrn : d.rhsNonContracting = [1]) (hlb : d.lhsBatch = []) (hrb : d.rhsBatch = []) : PlainDot d := by
  obtain ⟨lc, rc, ln, rn, lb, rb, wf⟩ := d
  dsimp only at hlc hrc hln hrn hlb hrb
  subst hlc hrc hln hrn hlb hrb
  refine ⟨rfl, fun _ => rfl, fun i q => ?_, fun i q _ => DotDims.lhsIdx_val_of_single _ rfl i q,
    fun i q _ => DotDims.rhsIdx_val_of_single _ rfl i q, fun i q => ?_⟩
  · unfold DotDims.lhsIdx
    rw [dif_neg List.not_mem_nil, dif_pos (List.mem_singleton.mpr rfl)]
    rfl
  · unfold DotDims.rhsIdx
    rw [dif_neg List.not_mem_nil, dif_pos (List.mem_singleton.mpr rfl)]
    rfl

/-! ## The layer -/

/-- The clamp at zero, the zero spelt as the word both programs print. -/
def clamp0 (s : EReal) : EReal := max s (Ideal.ofBits .f32 0x00000000#32)

/-- The hidden array: features times weights. -/
def hidden {n f h : Nat} (X : Mat n f) (W : Mat f h) : Mat n h := fun j => rowDot X W (j 0) (j 1)

/-- One layer: the adjacency times the hidden array, clamped at zero. -/
def layer {n f h : Nat} (A : Mat n n) (X : Mat n f) (W : Mat f h) : Mat n h :=
  fun i => clamp0 (rowDot A (hidden X W) (i 0) (i 1))

/-- A matrix-unit product into a zero accumulator, under a same-shape cast, is the hidden array. -/
theorem matmul_zero_eq_hidden {n f h : Nat} {d : DotDims ⟨2, ![n, f]⟩ ⟨2, ![f, h]⟩ ⟨2, ![n, h]⟩} (hd : PlainDot d)
    (prec : Option ContractPrecision) (X : FVec Ideal ⟨2, ![n, f]⟩ .f32) (W : FVec Ideal ⟨2, ![f, h]⟩ .f32) :
    FloatOps.matmul d prec X W (constant ⟨2, ![n, h]⟩ .f32 0x00000000#32) = hidden (fun i => X i) (fun i => W i) :=
  funext fun j => matmul_zero_at hd prec X W j

/-- The host's layer as printed — two `dot_general`s, then `maximum` against the broadcast zero word — is `layer`. -/
theorem host_layer {n f h : Nat} {d1 : DotDims ⟨2, ![n, f]⟩ ⟨2, ![f, h]⟩ ⟨2, ![n, h]⟩} {d2 : DotDims ⟨2, ![n, n]⟩ ⟨2, ![n, h]⟩ ⟨2, ![n, h]⟩}
    (h1 : PlainDot d1) (h2 : PlainDot d2) (A : FVec Ideal ⟨2, ![n, n]⟩ .f32) (X : FVec Ideal ⟨2, ![n, f]⟩ .f32) (W : FVec Ideal ⟨2, ![f, h]⟩ .f32)
    (Z : FVec Ideal ⟨2, ![n, h]⟩ .f32) (hZ : ∀ i, Z i = Ideal.ofBits .f32 0x00000000#32) :
    maximumf (Host.dotGeneral d2 none A (Host.dotGeneral d1 none X W)) Z = layer (fun i => A i) (fun i => X i) (fun i => W i) := by
  funext i
  rw [maximumf_apply, hZ, dotGeneral_at h2]
  unfold layer clamp0 rowDot
  refine congrArg (fun s => max s _) (Finset.sum_congr rfl fun κ _ => ?_)
  exact congrArg (fun s => A (ix2 (i 0) κ) * s) (dotGeneral_at h1 none X W (ix2 κ (i 1)))

/-- The kernel's block: `b` rows of the adjacency (row `r` of the block is row `row r` of the array) times the whole
    hidden array on the matrix unit into a zero accumulator, clamped against the splat zero word, read at (r, q), is
    the layer at (row r, q). -/
theorem block_layer {n f h b : Nat} {d : DotDims ⟨2, ![b, n]⟩ ⟨2, ![n, h]⟩ ⟨2, ![b, h]⟩} (hd : PlainDot d)
    (A : Mat n n) (X : Mat n f) (W : Mat f h) (a : FVec Ideal ⟨2, ![b, n]⟩ .f32) (row : Fin b → Fin n)
    (ha : ∀ (r : Fin b) (κ : Fin n), a (ix2 r κ) = A (ix2 (row r) κ))
    (H : FVec Ideal ⟨2, ![n, h]⟩ .f32) (hH : ∀ j, H j = hidden X W j)
    (Z : FVec Ideal ⟨2, ![b, h]⟩ .f32) (hZ : ∀ i, Z i = Ideal.ofBits .f32 0x00000000#32) (r : Fin b) (q : Fin h) :
    maximumf (FloatOps.matmul d none a H (constant ⟨2, ![b, h]⟩ .f32 0x00000000#32)) Z (ix2 r q) = layer A X W (ix2 (row r) q) := by
  rw [maximumf_apply, hZ, matmul_zero_at hd]
  unfold layer clamp0 rowDot
  refine congrArg (fun s => max s _) (Finset.sum_congr rfl fun κ _ => ?_)
  show a (ix2 r κ) * H (ix2 κ q) = A (ix2 (row r) κ) * hidden X W (ix2 κ q)
  rw [ha, hH]

end Idealize.ShloMosaic.GcnSpec

end
-- ==== Proof.Region0Value.lean ====
/-
  The first matrix-product region, read as a value. The region walks twenty row blocks of ten thousand rows: at a point
  it multiplies its row block of the left array with the whole weights array on the matrix unit, into a zero
  accumulator, and writes the block of the result back. Over the extended reals the change of float format before the
  product is the identity, so entry (p, q) of a block is the plain sum over the contracted axis of row p of the block
  against column q of the weights; row p of block t is row 10000·t + p of the array; and the twenty blocks tile the
  result. So the result array ends as the whole product of the two arrays, entry by entry — for whatever the arrays
  hold when the region is entered.
-/
import proofs.«141529_j58016418234712_1_alg».proof.Proof.Gen.KernelIdeal.Frame
import proofs.«141529_j58016418234712_1_alg».proof.Proof.LibSageSpec
import proofs.«141529_j58016418234712_1_alg».proof.Proof.LibGcnSpec
import Idealize.ShloMosaic.Lib.Pipeline.Value
import Idealize.ShloMosaic.Lib.ValueIdx
import Idealize.ShloMosaic.PureOps.Ideal.Laws

set_option maxRecDepth 16384

noncomputable section

namespace Cert.KernelIdeal.Region0Value

open Cert.KernelIdeal Cert.KernelIdeal.Gen
open Idealize.ShloMosaic Idealize.ShloMosaic.TcCoe Idealize.SL.Sem Idealize.ShloMosaic.ValueIdx
open Idealize.ShloMosaic.SageSpec Idealize.ShloMosaic.GcnSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the [200000, 128] array times the [128, 16] weights, ten thousand rows a grid point -/

/-- The block product's dimension numbers are the plain rows-by-columns ones. -/
theorem plain0 : PlainDot dot_S10000x128_S128x16_S10000x16_1_0_0_1_n_n :=
  plainDot_of_lists _ rfl rfl rfl rfl rfl rfl

/-- Entry (r, q) of the whole product: row r of the left array against column q of the weights. -/
def prod0 (x : S200000x128.Idx → EReal) (w : S128x16.Idx → EReal) : S200000x16.Idx → EReal :=
  fun j => rowDot (n := 200000) (k := 128) (m := 16) x w (j 0) (j 1)

/-- What a grid point stores, at (p, q) of its block: row p of the left block against column q of the weights block. A
    change of float format is the identity on extended reals, and the accumulator starts at zero. -/
theorem pay0_at (x0 : Vec Ideal S10000x128 .f32) (x1 : Vec Ideal S128x16 .f32) (y : S10000x16.Idx) :
    k0_pay1 x0 x1 y = rowDot (n := 10000) (k := 128) (m := 16) x0 x1 (y 0) (y 1) := by
  unfold k0_pay1
  try rw [shapeCast_self]  -- a cast of the left block to its own shape, where the body has one, is the identity
  exact matmul_zero_at plain0 none _ _ y

/-- The printed index maps over the grid: point t takes row block t of the left array and of the result, and the one
    block of the weights. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left block at point t is rows 10000·t … 10000·t + 9999 of the left array as the region finds it. -/
theorem lblk0_at (c : Dev nD) (t : Fin cfg0.N) (p : Fin 10000) (κ : Fin 128) (r : Fin 200000) (hr : r.val = t.val * 10000 + p.val) :
    (iblk0 V c 0 t : Vec Ideal S10000x128 .f32) (ix2 p κ) = (V c main_arg0 : S200000x128.Idx → EReal) (ix2 r κ) := by
  obtain ⟨e0, e1, -, -, -, -⟩ := idx0 t
  unfold iblk0
  rw [View.read_apply]
  show V c main_arg0 _ = V c main_arg0 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 128 + 1 * κ.val = κ.val; rw [e1]; omega

/-- The weights block at every point is the whole weights array. -/
theorem wblk0_at (c : Dev nD) (t : Fin cfg0.N) (κ : Fin 128) (q : Fin 16) :
    (iblk0 V c 1 t : Vec Ideal S128x16 .f32) (ix2 κ q) = (V c main_arg2 : S128x16.Idx → EReal) (ix2 κ q) := by
  obtain ⟨-, -, e2, e3, -, -⟩ := idx0 t
  unfold iblk0
  rw [View.read_apply]
  show V c main_arg2 _ = V c main_arg2 _
  congr 1
  funext a
  apply Fin.ext
  match a with
  | ⟨0, _⟩ => show win0_1.index t (0 : Fin 2) * 128 + 1 * κ.val = κ.val; rw [e2]; omega
  | ⟨1, _⟩ => show win0_1.index t (1 : Fin 2) * 16 + 1 * q.val = q.val; rw [e3]; omega

/-- What point t writes back is block t of the whole product of the arrays the region finds. -/
theorem flushed0 (c : Dev nD) (t : Fin cfg0.N) :
    (dat0 V c).flushed 2 t = ((cfg0.win 2).blk t).view.read (Elt Ideal) (prod0 (V c main_arg0) (V c main_arg2)) := by
  obtain ⟨-, -, -, -, e4, e5⟩ := idx0 t
  show (cfg0.win 2).cut (grid0.coords t) ((dat0 V c).after 2 t) = _
  rw [after0_2]
  unfold out0_2
  rw [View.canon_unit_zero hz]
  simp only [View.ld_unit_zero (S := S10000x128) hz, View.ld_unit_zero (S := S128x16) hz]
  funext y
  obtain ⟨p, q, rfl⟩ : ∃ (p : Fin 10000) (q : Fin 16), y = ix2 p q := ⟨y 0, y 1, eq_ix2 y⟩
  have ht : t.val < 20 := lt_of_lt_of_eq t.isLt N_0
  have hr : t.val * 10000 + p.val < 200000 := by have := p.isLt; omega
  refine (pay0_at _ _ (ix2 p q)).trans ?_
  show _ = prod0 (V c main_arg0) (V c main_arg2) (((cfg0.win 2).blk t).view.emb (ix2 p q))
  have hemb : ((cfg0.win 2).blk t).view.emb (ix2 p q) = (ix2 (⟨t.val * 10000 + p.val, hr⟩ : Fin 200000) q : S200000x16.Idx) := by
    funext a
    apply Fin.ext
    match a with
    | ⟨0, _⟩ => show win0_2.index t (0 : Fin 2) * 10000 + 1 * p.val = t.val * 10000 + p.val; rw [e4]; omega
    | ⟨1, _⟩ => show win0_2.index t (1 : Fin 2) * 16 + 1 * q.val = q.val; rw [e5]; omega
  rw [hemb]
  unfold prod0 rowDot
  refine Finset.sum_congr rfl fun κ _ => ?_
  congr 1
  · exact lblk0_at V c t p κ ⟨t.val * 10000 + p.val, hr⟩ rfl
  · exact wblk0_at V c t κ q

/-- An index of the result array lies in point t's block iff each coordinate lies in the block's range. -/
theorem mem_blk0 (t : Fin cfg0.N) (i : S200000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v30).slice (win0_2.rect t)).set ↔ _
  rw [View.set_slice_whole, Rect.mem_set_unit]
  exact Iff.rfl

/-- Row r of the result lies in the block of point r / 10000: the twenty row blocks tile the array. -/
theorem cover0 (i : S200000x16.Idx) : ∃ t : Fin cfg0.N, (cfg0.win 2).flush t = true ∧ i ∈ ((cfg0.win 2).blk t).view.set := by
  have hi0 : (i 0).val < 200000 := (i 0).isLt
  have hi1 : (i 1).val < 16 := (i 1).isLt
  have ht : (i 0).val / 10000 < cfg0.N := by rw [show cfg0.N = 20 from N_0]; omega
  obtain ⟨-, -, -, -, e4, e5⟩ := idx0 ⟨(i 0).val / 10000, ht⟩
  refine ⟨⟨(i 0).val / 10000, ht⟩, flush0_2 _, ?_⟩
  rw [mem_blk0]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 16 ≤ (i 1).val ∧ (i 1).val < win0_2.index ⟨(i 0).val / 10000, ht⟩ (1 : Fin 2) * 16 + 16
    rw [e5]; omega

/-- After the region the result array holds the whole product of the two arrays the region found. -/
theorem final0 (c : Dev nD) : (dat0 V c).arrAt 2 cfg0.N = prod0 (V c main_arg0) (V c main_arg2) :=
  (dat0 V c).arrAt_eq_of_cover 2 (prod0 (V c main_arg0) (V c main_arg2)) (fun t _ => flushed0 V c t) (cover0)

end Cert.KernelIdeal.Region0Value

end
-- ==== Proof.HostValue.lean ====
/-
  The kernel's run, stretch by stretch, against the reference's stages.

  Both programs spell one graph convolution twice: the edge list with a self loop appended per node (sources, targets),
  the in-degree by a scatter-add of ones, the edge weight  w(e) = d(src e) · d(dst e)  with  d = 1/√deg  where deg > 0
  and 0 elsewhere, and a layer  out = scatter-add over targets of (h[src e] · w(e)) + bias,  with  h = features · weights.
  The kernel computes sources, targets and weights once and keeps them; the reference computes them again for the
  second layer, by the same operations of the same edge list, so they are the same arrays. The kernel takes the two
  products  features · weights  on the matrix unit (the two regions), the reference by `dot_general`: the same sums.
  Every other operation is the same host operation of the same operands on both sides, gathers and scatters included,
  whatever the index arrays hold.

  So each buffer the kernel's run leaves at a boundary is a stage of the reference, as a function of the arguments:
  before the first region the sources, targets and weights; after it the first product; after the stretch between the
  regions the first layer with its clamp at zero; after the second region the second product; after the last stretch
  the result. The comparisons of long host terms are made at an abstract float family, where nothing can be evaluated;
  what a region leaves enters them as a hypothesis, which is proved at the extended reals.
-/
import proofs.«141529_j58016418234712_1_alg».proof.Proof.Gen.KernelIdeal.Frame
import proofs.«141529_j58016418234712_1_alg».proof.Proof.RefRead
import proofs.«141529_j58016418234712_1_alg».proof.Proof.Region0Value
import proofs.«141529_j58016418234712_1_alg».proof.Proof.Region1Value
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.SageSpec Idealize.ShloMosaic.GcnSpec
open Cert.ReferenceIdeal.ReadP

/-- Reads, one operation at a time, what the operations leave in the operands listed inside a concatenate. -/
macro "results_rw" : tactic =>
  `(tactic| (repeat (first
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

section AnyFloats

variable {F : FTy → Type} [FloatOps F]
variable (m : (ℓ : Loc nD τ sig) → Buf (Elt F) ℓ) (ρ : Dev nD → PrngReg)

/-! ## Before the first region: the edge list with self loops, and the edge weights -/

/-- The sources with a self loop per node appended. -/
theorem at3_src (c : Dev nD) : W3 m ρ c (Proc.devRef .tc main_v5) = val_main_v6 (F := F) (m ((c : Thread nD τ).loc main_arg1)) := by
  after_results_simp; results_rw; rfl

/-- The targets with a self loop per node appended. -/
theorem at3_dst (c : Dev nD) : W3 m ρ c (Proc.devRef .tc main_v6) = val_main_v7 (F := F) (m ((c : Thread nD τ).loc main_arg1)) := by
  after_results_simp; results_rw; rfl

set_option maxHeartbeats 4000000 in
/-- The edge weights: the inverse square roots of the in-degrees at the two ends of each edge, multiplied. -/
theorem at3_weight (c : Dev nD) : W3 m ρ c (Proc.devRef .tc main_v29) = val_main_v30 (F := F) (m ((c : Thread nD τ).loc main_arg1)) := by
  after_results_simp; results_rw; rfl

/-- No host operation writes an argument. -/
theorem at3_arg0 (c : Dev nD) : W3 m ρ c (Proc.devRef .tc main_arg0) = m ((c : Thread nD τ).loc main_arg0) := by
  after_results_simp
theorem at3_arg2 (c : Dev nD) : W3 m ρ c (Proc.devRef .tc main_arg2) = m ((c : Thread nD τ).loc main_arg2) := by
  after_results_simp
theorem at3_arg3 (c : Dev nD) : W3 m ρ c (Proc.devRef .tc main_arg3) = m ((c : Thread nD τ).loc main_arg3) := by
  after_results_simp
theorem at3_arg4 (c : Dev nD) : W3 m ρ c (Proc.devRef .tc main_arg4) = m ((c : Thread nD τ).loc main_arg4) := by
  after_results_simp
theorem at3_arg5 (c : Dev nD) : W3 m ρ c (Proc.devRef .tc main_arg5) = m ((c : Thread nD τ).loc main_arg5) := by
  after_results_simp

/-! ## Between the regions: the first layer, from whatever the first region left -/

/-- The first region writes none of these, and neither does the stretch after it. -/
theorem at6_src (c : Dev nD) : W6 m ρ c (Proc.devRef .tc main_v5) = val_main_v6 (F := F) (m ((c : Thread nD τ).loc main_arg1)) := by
  after_results_simp; exact (W4_of_ne m ρ c main_v5 (by decide)).trans (at3_src m ρ c)
theorem at6_dst (c : Dev nD) : W6 m ρ c (Proc.devRef .tc main_v6) = val_main_v7 (F := F) (m ((c : Thread nD τ).loc main_arg1)) := by
  after_results_simp; exact (W4_of_ne m ρ c main_v6 (by decide)).trans (at3_dst m ρ c)
theorem at6_weight (c : Dev nD) : W6 m ρ c (Proc.devRef .tc main_v29) = val_main_v30 (F := F) (m ((c : Thread nD τ).loc main_arg1)) := by
  after_results_simp; exact (W4_of_ne m ρ c main_v29 (by decide)).trans (at3_weight m ρ c)
theorem at6_arg4 (c : Dev nD) : W6 m ρ c (Proc.devRef .tc main_arg4) = m ((c : Thread nD τ).loc main_arg4) := by
  after_results_simp; exact (W4_of_ne m ρ c main_arg4 (by decide)).trans (at3_arg4 m ρ c)
theorem at6_arg5 (c : Dev nD) : W6 m ρ c (Proc.devRef .tc main_arg5) = m ((c : Thread nD τ).loc main_arg5) := by
  after_results_simp; exact (W4_of_ne m ρ c main_arg5 (by decide)).trans (at3_arg5 m ρ c)

set_option maxHeartbeats 4000000 in
/-- If the first region left the product of the features with the first weights, the stretch after it leaves the first
    layer: gathered at the sources, scaled by the edge weights, scatter-added at the targets, the bias added, clamped at
    zero. -/
theorem at6_layer1_of (c : Dev nD)
    (h : W4 m ρ c (Proc.devRef .tc main_v30) = val_main_v4 (F := F) (m ((c : Thread nD τ).loc main_arg0)) (m ((c : Thread nD τ).loc main_arg2))) :
    W6 m ρ c (Proc.devRef .tc main_v47) = val_main_v47 (F := F) (m ((c : Thread nD τ).loc main_arg0)) (m ((c : Thread nD τ).loc main_arg1)) (m ((c : Thread nD τ).loc main_arg2)) (m ((c : Thread nD τ).loc main_arg3)) := by
  after_results_simp
  rw [h, W4_of_ne m ρ c main_v5 (by decide), W4_of_ne m ρ c main_v6 (by decide), W4_of_ne m ρ c main_v29 (by decide),
    W4_of_ne m ρ c main_arg3 (by decide), at3_src, at3_dst, at3_weight, at3_arg3]
  rfl

/-! ## After the second region: the result, from whatever the second region left -/

set_option maxHeartbeats 4000000 in
/-- If the second region left the product of the first layer with the second weights, the last stretch leaves the
    reference's result: the reference's second copies of the sources, targets and weights are the first ones. -/
theorem at8_result_of (c : Dev nD)
    (h : W7 m ρ c (Proc.devRef .tc main_v48) = val_main_v48 (F := F) (m ((c : Thread nD τ).loc main_arg0)) (m ((c : Thread nD τ).loc main_arg1)) (m ((c : Thread nD τ).loc main_arg2)) (m ((c : Thread nD τ).loc main_arg3)) (m ((c : Thread nD τ).loc main_arg4))) :
    W8 m ρ c (Proc.devRef .tc main_v64) = val_main_v90 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  after_results_simp
  rw [h, W7_of_ne m ρ c main_v5 (by decide), W7_of_ne m ρ c main_v6 (by decide), W7_of_ne m ρ c main_v29 (by decide),
    W7_of_ne m ρ c main_arg5 (by decide), at6_src, at6_dst, at6_weight, at6_arg5]
  rfl

end AnyFloats

/-! ## At the extended reals: what the regions leave -/

section ExtendedReals

variable (m : (ℓ : Loc nD τ sig) → Buf (Elt Ideal) ℓ) (ρ : Dev nD → PrngReg)

theorem plainRef0 : PlainDot Cert.ReferenceIdeal.dot_S200000x128_S128x16_S200000x16_1_0_0_1_n_n :=
  plainDot_of_lists _ rfl rfl rfl rfl rfl rfl
theorem plainRef1 : PlainDot Cert.ReferenceIdeal.dot_S200000x16_S16x32_S200000x32_1_0_0_1_n_n :=
  plainDot_of_lists _ rfl rfl rfl rfl rfl rfl

/-- The whole product, entry by entry, is the host's `dot_general` of the same two arrays: both are the plain sum over
    the contracted axis. -/
theorem prod0_eq (x : S200000x128.Idx → EReal) (w : S128x16.Idx → EReal) :
    Region0Value.prod0 x w = val_main_v4 (F := Ideal) x w := by
  funext j
  unfold val_main_v4
  exact (dotGeneral_at plainRef0 none x w j).symm

theorem prod1_eq (x : FVec Ideal S200000x16 .f32) (w : FVec Ideal S16x32 .f32) :
    Region1Value.prod1 x w = Host.dotGeneral (F := Ideal) Cert.ReferenceIdeal.dot_S200000x16_S16x32_S200000x32_1_0_0_1_n_n none x w := by
  funext j
  exact (dotGeneral_at plainRef1 none x w j).symm

/-- After the first region its result array holds the product of the features with the first weights. -/
theorem at4_product (c : Dev nD) :
    W4 m ρ c (Proc.devRef .tc main_v30) = val_main_v4 (F := Ideal) (m ((c : Thread nD τ).loc main_arg0)) (m ((c : Thread nD τ).loc main_arg2)) :=
  (W4_arr m ρ c 2).trans ((Region0Value.final0 (V3 m ρ) c).trans
    ((congrArg₂ Region0Value.prod0 (at3_arg0 m ρ c) (at3_arg2 m ρ c)).trans (prod0_eq _ _)))

/-- So the stretch between the regions leaves the first layer. -/
theorem at6_layer1 (c : Dev nD) :
    W6 m ρ c (Proc.devRef .tc main_v47) = val_main_v47 (F := Ideal) (m ((c : Thread nD τ).loc main_arg0)) (m ((c : Thread nD τ).loc main_arg1)) (m ((c : Thread nD τ).loc main_arg2)) (m ((c : Thread nD τ).loc main_arg3)) :=
  at6_layer1_of m ρ c (at4_product m ρ c)

/-- After the second region its result array holds the product of the first layer with the second weights. -/
theorem at7_product (c : Dev nD) :
    W7 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W7_arr m ρ c 2).trans ((Region1Value.final1 (V6 m ρ) c).trans
    ((congrArg₂ Region1Value.prod1 (at6_layer1 m ρ c) (at6_arg4 m ρ c)).trans (prod1_eq _ _)))

/-- The kernel's result array ends at the reference's last stage of the arguments. -/
theorem result_eq (c : Dev nD) :
    W8 m ρ c (Proc.devRef .tc main_v64) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  at8_result_of m ρ c (at7_product m ρ c)

end ExtendedReals

end Cert.KernelIdeal.HostValue

end
-- ==== Proof.lean ====
/-
  Two graph-convolution layers over 200000 nodes and 6400000 edges, the kernel against its reference, over the
  extended reals.

  A layer is  out = scatter-add over edge targets of (h[src e] · w(e)) + bias  with  h = features · weights, a self loop
  appended per node, and  w(e) = d(src e) · d(dst e),  d = 1/√(in-degree) where the in-degree is positive and 0 elsewhere;
  the first layer is clamped at zero and feeds the second. The kernel takes the two products  features · weights  on the
  matrix unit, twenty row blocks of ten thousand rows each, after changing the operands' float format; the reference
  takes them by `dot_general`. Over the extended reals a change of float format is the identity and both products are
  the plain sum over the contracted axis into a zero accumulator, entry by entry (Proof/Region0Value.lean,
  Proof/Region1Value.lean). Every other operation — slices, the appended self loops, the scatter-add of ones, the
  compare and inverse square root, gathers, scatter-adds, the bias — is the same host operation of the same operands on
  both sides, so nothing has to be known about the index arrays, and no entry has to be finite. The kernel keeps the
  sources, targets and edge weights it computed for the first layer; the reference computes them again from the same
  edge list by the same operations: the same arrays (Proof/HostValue.lean).

  The frames of the two kernel programs are the generated ones; the reference's frame is its run with the result
  dropped. The idealization rewrote no operation, so there is nothing to preserve. For the value claim the kernel's run
  is read with its result buffer at what the last stretch of host operations leaves (Proof/ResultRun.lean), which
  Proof/HostValue.lean shows to be the reference's last stage of the same arguments.
-/
import proofs.«141529_j58016418234712_1_alg».proof.Defs
import proofs.«141529_j58016418234712_1_alg».proof.Proof.Gen.Kernel
import proofs.«141529_j58016418234712_1_alg».proof.Proof.Gen.Kernel.Frame
import proofs.«141529_j58016418234712_1_alg».proof.Proof.Gen.KernelIdeal
import proofs.«141529_j58016418234712_1_alg».proof.Proof.Gen.KernelIdeal.Frame
import proofs.«141529_j58016418234712_1_alg».proof.Proof.Gen.ReferenceIdeal
import proofs.«141529_j58016418234712_1_alg».proof.Proof.Gen.Pre_finite_inputs
import proofs.«141529_j58016418234712_1_alg».proof.Proof.ResultRun
import proofs.«141529_j58016418234712_1_alg».proof.Proof.RefRun
import proofs.«141529_j58016418234712_1_alg».proof.Proof.RefRead
import proofs.«141529_j58016418234712_1_alg».proof.Proof.HostValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the same result array: the kernel's is what its
    last stretch of host operations leaves, which is the reference's last stage of the kernel's arguments, and the
    reference's run ends at that stage of its own arguments. -/
theorem algebraic : Cert.algebraic_KernelIdeal_ReferenceIdeal := by
  intro m ρ m' ρ' _ hagree
  refine ⟨fun c => Cert.KernelIdeal.Gen.W8 m ρ c (Proc.devRef .tc Cert.KernelIdeal.main_v64),
    Cert.KernelIdeal.ResultRun.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  rw [Cert.ReferenceIdeal.ReadP.val_main_v90_eq, h0, h1, h2, h3, h4, h5]
  exact (Cert.KernelIdeal.HostValue.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
